-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256 : Shape := ⟨3, ![4, 256, 256]⟩
abbrev S4x64x256 : Shape := ⟨3, ![4, 64, 256]⟩
abbrev S1024x256 : Shape := ⟨2, ![1024, 256]⟩
abbrev S1024 : Shape := ⟨1, ![1024]⟩
abbrev S_ : Shape := ⟨0, ![]⟩

class Facts : Prop where
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel
  bcast_S_S4x64x256 : S_.BroadcastsInDim S4x64x256 (![] : Fin 0 → Fin S4x64x256.rank)
  reducesTo_S4x64x256_S_d0_1_2 : S4x64x256.ReducesTo [0, 1, 2] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x256x256 .f32) (main_arg1 : FVec F S4x64x256 .f32) (main_arg2 : FVec F S1024x256 .f32) (main_arg3 : FVec F S1024 .f32) : IVec S_ 1 :=
  let main_v0 : FVec F S4x256x256 .f32 := Host.absf main_arg0
  let main_cst : FVec F S_ .f32 := constant S_ .f32 0x7F800000#32
  let main_v1 : FVec F S4x256x256 .f32 := broadcastInDim S4x256x256 ![] bcast_S_S4x256x256 main_cst
  let main_v2 : IVec S4x256x256 1 := cmpf .olt main_v0 main_v1
  let main_c : IVec S_ 1 := constantI S_ 1 1#1
  let main_v3 : IVec S_ 1 := (fun x v => Host.reduce IntOp.andi x v reducesTo_S4x256x256_S_d0_1_2 h_S_) main_v2 main_c
  let main_v4 : FVec F S4x64x256 .f32 := Host.absf main_arg1
  let main_cst_0 : FVec F S_ .f32 := constant S_ .f32 0x7F800000#32
  let main_v5 : FVec F S4x64x256 .f32 := broadcastInDim S4x64x256 ![] bcast_S_S4x64x256 main_cst_0
  let main_v6 : IVec S4x64x256 1 := cmpf .olt main_v4 main_v5
  let main_c_1 : IVec S_ 1 := constantI S_ 1 1#1
  let main_v7 : IVec S_ 1 := (fun x v => Host.reduce IntOp.andi x v reducesTo_S4x64x256_S_d0_1_2 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x256x256 : Shape := ⟨3, ![4, 256, 256]⟩
abbrev S4x64x256 : Shape := ⟨3, ![4, 64, 256]⟩
abbrev S1024x256 : Shape := ⟨2, ![1024, 256]⟩
abbrev S1024 : Shape := ⟨1, ![1024]⟩
abbrev S4x256x64x1024 : Shape := ⟨4, ![4, 256, 64, 1024]⟩
abbrev S1x32x256 : Shape := ⟨3, ![1, 32, 256]⟩
abbrev S1x64x256 : Shape := ⟨3, ![1, 64, 256]⟩
abbrev S1x32x64x1024 : Shape := ⟨4, ![1, 32, 64, 1024]⟩
abbrev S32x256 : Shape := ⟨2, ![32, 256]⟩
abbrev S64x256 : Shape := ⟨2, ![64, 256]⟩
abbrev S32x1x256 : Shape := ⟨3, ![32, 1, 256]⟩
abbrev S32x64x256 : Shape := ⟨3, ![32, 64, 256]⟩
abbrev S2048x256 : Shape := ⟨2, ![2048, 256]⟩
abbrev S2048x1024 : Shape := ⟨2, ![2048, 1024]⟩
abbrev S1x1024 : Shape := ⟨2, ![1, 1024]⟩
abbrev S32x64x1024 : Shape := ⟨3, ![32, 64, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4x256x256, .f32⟩
  | .hbm, ⟨1, _⟩ => ⟨S4x64x256, .f32⟩
  | .hbm, ⟨2, _⟩ => ⟨S1024x256, .f32⟩
  | .hbm, ⟨3, _⟩ => ⟨S1024, .f32⟩
  | .hbm, ⟨4, _⟩ => ⟨S4x256x64x1024, .f32⟩
  | .local _ .vmem, ⟨0, _⟩ => ⟨S1x32x256, .f32⟩
  | .local _ .vmem, ⟨1, _⟩ => ⟨S1x32x256, .f32⟩
  | .local _ .vmem, ⟨2, _⟩ => ⟨S1x64x256, .f32⟩
  | .local _ .vmem, ⟨3, _⟩ => ⟨S1x64x256, .f32⟩
  | .local _ .vmem, ⟨4, _⟩ => ⟨S1024x256, .f32⟩
  | .local _ .vmem, ⟨5, _⟩ => ⟨S1024, .f32⟩
  | .local _ .vmem, ⟨6, _⟩ => ⟨S1x32x64x1024, .f32⟩
  | .local _ .vmem, ⟨7, _⟩ => ⟨S1x32x64x1024, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S32x256_S32x1x256 : S32x256.ShapeCasts S32x1x256
  shapeCasts_S64x256_S1x64x256 : S64x256.ShapeCasts S1x64x256
  broadcasts_S32x1x256_S32x64x256 : S32x1x256.Broadcasts S32x64x256
  broadcasts_S1x64x256_S32x64x256 : S1x64x256.Broadcasts S32x64x256
  shapeCasts_S32x64x256_S2048x256 : S32x64x256.ShapeCasts S2048x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  shapeCasts_S2048x1024_S32x64x1024 : S2048x1024.ShapeCasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256.size a ≤ S4x256x256.size a
  hwx0_0 : ∀ i : grid0.Coords, EltTy.bits .f32 = 32 ∨ (Rect.block (s := S4x256x256) S1x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S4x64x256.size a
  hwx0_1 : ∀ i : grid0.Coords, EltTy.bits .f32 = 32 ∨ (Rect.block (s := S4x64x256) S1x64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x64x1024.size a ≤ S4x256x64x1024.size a
  hwx0_4 : ∀ i : grid0.Coords, EltTy.bits .f32 = 32 ∨ (Rect.block (s := S4x256x64x1024) S1x32x64x1024.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S1x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x32x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x256 : Shape := ⟨3, ![4, 256, 256]⟩
abbrev S4x64x256 : Shape := ⟨3, ![4, 64, 256]⟩
abbrev S1024x256 : Shape := ⟨2, ![1024, 256]⟩
abbrev S1024 : Shape := ⟨1, ![1024]⟩
abbrev S4x256x1x256 : Shape := ⟨4, ![4, 256, 1, 256]⟩
abbrev S4x1x64x256 : Shape := ⟨4, ![4, 1, 64, 256]⟩
abbrev S4x256x64x256 : Shape := ⟨4, ![4, 256, 64, 256]⟩
abbrev S4x256x64x1024 : Shape := ⟨4, ![4, 256, 64, 1024]⟩
abbrev S1x1x1x1024 : Shape := ⟨4, ![1, 1, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x64x256, .f32⟩
  | .hbm, ⟨2, _⟩ => ⟨S1024x256, .f32⟩
  | .hbm, ⟨3, _⟩ => ⟨S1024, .f32⟩
  | .hbm, ⟨4, _⟩ => ⟨S4x256x1x256, .f32⟩
  | .hbm, ⟨5, _⟩ => ⟨S4x1x64x256, .f32⟩
  | .hbm, ⟨6, _⟩ => ⟨S4x256x64x256, .f32⟩
  | .hbm, ⟨7, _⟩ => ⟨S4x256x64x256, .f32⟩
  | .hbm, ⟨8, _⟩ => ⟨S4x256x64x256, .f32⟩
  | .hbm, ⟨9, _⟩ => ⟨S4x256x64x1024, .f32⟩
  | .hbm, ⟨10, _⟩ => ⟨S1x1x1x1024, .f32⟩
  | .hbm, ⟨11, _⟩ => ⟨S4x256x64x1024, .f32⟩
  | .hbm, ⟨12, _⟩ => ⟨S4x256x64x1024, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S4x256x256_S4x256x1x256_0_1_3 : S4x256x256.BroadcastsInDim S4x256x1x256 (![0, 1, 3] : Fin 3 → Fin S4x256x1x256.rank)
  bcast_S4x64x256_S4x1x64x256_0_2_3 : S4x64x256.BroadcastsInDim S4x1x64x256 (![0, 2, 3] : Fin 3 → Fin S4x1x64x256.rank)
  bcast_S4x256x1x256_S4x256x64x256_0_1_2_3 : S4x256x1x256.BroadcastsInDim S4x256x64x256 (![0, 1, 2, 3] : Fin 4 → Fin S4x256x64x256.rank)
  bcast_S4x1x64x256_S4x256x64x256_0_1_2_3 : S4x1x64x256.BroadcastsInDim S4x256x64x256 (![0, 1, 2, 3] : Fin 4 → Fin S4x256x64x256.rank)
  bcast_S1024_S1x1x1x1024_3 : S1024.BroadcastsInDim S1x1x1x1024 (![3] : Fin 1 → Fin S1x1x1x1024.rank)
  bcast_S1x1x1x1024_S4x256x64x1024_0_1_2_3 : S1x1x1x1024.BroadcastsInDim S4x256x64x1024 (![0, 1, 2, 3] : Fin 4 → Fin S4x256x64x1024.rank)
  dot_S4x256x64x256_S1024x256_S4x256x64x1024_3_1_012_0_n_n_wf : DotDims.WF S4x256x64x256 S1024x256 S4x256x64x1024 [3] [1] [0, 1, 2] [0] [] []

variable [Facts₀]

def dot_S4x256x64x256_S1024x256_S4x256x64x1024_3_1_012_0_n_n : DotDims S4x256x64x256 S1024x256 S4x256x64x1024 where
  lhsContracting := [3]
  rhsContracting := [1]
  lhsNonContracting := [0, 1, 2]
  rhsNonContracting := [0]
  lhsBatch := []
  rhsBatch := []
  wf := dot_S4x256x64x256_S1024x256_S4x256x64x1024_3_1_012_0_n_n_wf

class Facts : Prop extends Facts₀ where

variable [Facts]
-- ==== Proof.JointBody.lean ====
/-
  The kernel's body at one grid point, read at an index, at the ideal values.

  The body loads a block xb of shape [1, 32, 256] (32 time steps of one batch entry), a block yb of shape
  [1, 64, 256] (all 64 label positions of that batch entry), the whole weight matrix w of shape [1024, 256] and the bias
  bb of shape [1024]. It forms the outer product z(p, u, k) = xb(0, p, k) · yb(0, u, k), flattens (p, u) to one row
  index r = 64·p + u, multiplies z as a [2048, 256] matrix with the transpose of w (both operands contracted on their
  second axis) into a zero accumulator, adds the bias along the rows and restores the shape [1, 32, 64, 1024].
  A change of float format is the identity on extended reals, so the stored value at (0, p, u, v) is
      Σ_{k < 256} (xb(0, p, k) · yb(0, u, k)) · w(v, k)  +  bb(v).
-/
import proofs.«128729_j24618752541227_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Joint

open Cert.KernelIdeal Cert.KernelIdeal.Gen Idealize.ShloMosaic Idealize.ShloMosaic.ValueIdx

/-! ## The matrix product's operand indices -/

/-- The left operand's row is the output's row. -/
theorem lhs_mm_0 (i : S2048x1024.Idx) (q : dot_S2048x256_S1024x256_S2048x1024_1_1_0_0_n_n.contr.Idx) :
    (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl

/-- The left operand's column is the contraction index. -/
theorem lhs_mm_1 (i : S2048x1024.Idx) (q : dot_S2048x256_S1024x256_S2048x1024_1_1_0_0_n_n.contr.Idx) :
    (dot_S2048x256_S1024x256_S2048x1024_1_1_0_0_n_n.lhsIdx i q 1).val = (q ⟨0, by decide⟩).val :=
  dot_S2048x256_S1024x256_S2048x1024_1_1_0_0_n_n.lhsIdx_val_of_single rfl i q

/-- The right operand's row is the output's column: the right operand enters transposed. -/
theorem rhs_mm_0 (i : S2048x1024.Idx) (q : dot_S2048x256_S1024x256_S2048x1024_1_1_0_0_n_n.contr.Idx) :
    (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl

/-- The right operand's column is the contraction index. -/
theorem rhs_mm_1 (i : S2048x1024.Idx) (q : dot_S2048x256_S1024x256_S2048x1024_1_1_0_0_n_n.contr.Idx) :
    (dot_S2048x256_S1024x256_S2048x1024_1_1_0_0_n_n.rhsIdx i q 1).val = (q ⟨0, by decide⟩).val :=
  dot_S2048x256_S1024x256_S2048x1024_1_1_0_0_n_n.rhsIdx_val_of_single rfl i q

/-- The product A · Bᵀ into the zero accumulator at (r, v): the sum over k of A(r, k) · B(v, k). -/
theorem matmul_at {φ₁ φ₂ : FTy} (A : FVec Ideal S2048x256 φ₁) (B : FVec Ideal S1024x256 φ₂) (r : Fin 2048) (v : Fin 1024) :
    matmul dot_S2048x256_S1024x256_S2048x1024_1_1_0_0_n_n none A B (constant S2048x1024 .f32 0x00000000#32) (ix2 r v)
      = ∑ k : Fin 256, A (ix2 r k) * B (ix2 v k) := by
  simp only [matmul]
  rw [Ideal.matmul_constant_zero_apply, ← Equiv.sum_comp (contrEquiv1 dot_S2048x256_S1024x256_S2048x1024_1_1_0_0_n_n 256 rfl rfl).symm]
  refine Finset.sum_congr rfl fun k _ => ?_
  have hk := contrEquiv1_symm_val dot_S2048x256_S1024x256_S2048x1024_1_1_0_0_n_n 256 rfl rfl k
  have el : dot_S2048x256_S1024x256_S2048x1024_1_1_0_0_n_n.lhsIdx (ix2 r v) ((contrEquiv1 dot_S2048x256_S1024x256_S2048x1024_1_1_0_0_n_n 256 rfl rfl).symm k) = ix2 r k := funext fun a => Fin.ext (by
    match a with
    | ⟨0, _⟩ => exact lhs_mm_0 _ _
    | ⟨1, _⟩ => exact (lhs_mm_1 _ _).trans hk)
  have er : dot_S2048x256_S1024x256_S2048x1024_1_1_0_0_n_n.rhsIdx (ix2 r v) ((contrEquiv1 dot_S2048x256_S1024x256_S2048x1024_1_1_0_0_n_n 256 rfl rfl).symm k) = ix2 v k := funext fun a => Fin.ext (by
    match a with
    | ⟨0, _⟩ => exact rhs_mm_0 _ _
    | ⟨1, _⟩ => exact (rhs_mm_1 _ _).trans hk)
  rw [el, er]

/-! ## The outer product, flattened -/

/-- Row r = 64·p + u of the flattened outer product, at column k, is xb(0, p, k) · yb(0, u, k). -/
theorem outer_at (xb : Vec Ideal S1x32x256 .f32) (yb : Vec Ideal S1x64x256 .f32)
    (h1 : S1x32x256.ShapeCasts S32x256) (h2 : S32x256.ShapeCasts S32x1x256) (h3 : S32x1x256.Broadcasts S32x64x256)
    (h4 : S1x64x256.ShapeCasts S64x256) (h5 : S64x256.ShapeCasts S1x64x256) (h6 : S1x64x256.Broadcasts S32x64x256)
    (h7 : S32x64x256.ShapeCasts S2048x256)
    (p : Fin 32) (u : Fin 64) (k : Fin 256) (r : Fin 2048) (hr : r.val = p.val * 64 + u.val) :
    shapeCast S2048x256 (mulf (F := Ideal) (φ := .f32)
        (broadcastTo S32x64x256 (shapeCast S32x1x256 (shapeCast S32x256 xb h1) h2) h3)
        (broadcastTo S32x64x256 (shapeCast S1x64x256 (shapeCast S64x256 yb h4) h5) h6)) h7 (ix2 r k)
      = xb (ix3 (0 : Fin 1) p k) * yb (ix3 (0 : Fin 1) u k) := by
  refine (shapeCast_apply _ h7 (ix2 r k) (ix3 p u k) ?_).trans ?_
  · rw [Shape.rowMajor_val_three, Shape.rowMajor_val_two]
    show (p.val * 64 + u.val) * 256 + k.val = r.val * 256 + k.val
    rw [hr]
  · rw [mulf_apply]
    congr 1
    · refine (broadcastTo_apply _ h3 (ix3 p u k) (ix3 p (0 : Fin 1) k) ?_).trans ?_
      · intro ax
        match ax with
        | ⟨0, _⟩ => show p.val = if (32 : Nat) = 1 then 0 else p.val; rw [if_neg (by decide)]
        | ⟨1, _⟩ => show 0 = if (1 : Nat) = 1 then 0 else u.val; rw [if_pos rfl]
        | ⟨2, _⟩ => show k.val = if (256 : Nat) = 1 then 0 else k.val; rw [if_neg (by decide)]
      · refine (shapeCast_apply _ h2 (ix3 p (0 : Fin 1) k) (ix2 p k) ?_).trans ?_
        · rw [Shape.rowMajor_val_three, Shape.rowMajor_val_two]
          show p.val * 256 + k.val = (p.val * 1 + 0) * 256 + k.val
          rw [Nat.mul_one, Nat.add_zero]
        · refine shapeCast_apply xb h1 (ix2 p k) (ix3 (0 : Fin 1) p k) ?_
          rw [Shape.rowMajor_val_three, Shape.rowMajor_val_two]
          show (0 * 32 + p.val) * 256 + k.val = p.val * 256 + k.val
          rw [Nat.zero_mul, Nat.zero_add]
    · refine (broadcastTo_apply _ h6 (ix3 p u k) (ix3 (0 : Fin 1) u k) ?_).trans ?_
      · intro ax
        match ax with
        | ⟨0, _⟩ => show 0 = if (1 : Nat) = 1 then 0 else p.val; rw [if_pos rfl]
        | ⟨1, _⟩ => show u.val = if (64 : Nat) = 1 then 0 else u.val; rw [if_neg (by decide)]
        | ⟨2, _⟩ => show k.val = if (256 : Nat) = 1 then 0 else k.val; rw [if_neg (by decide)]
      · refine (shapeCast_apply _ h5 (ix3 (0 : Fin 1) u k) (ix2 u k) ?_).trans ?_
        · rw [Shape.rowMajor_val_three, Shape.rowMajor_val_two]
          show u.val * 256 + k.val = (0 * 64 + u.val) * 256 + k.val
          rw [Nat.zero_mul, Nat.zero_add]
        · refine shapeCast_apply yb h4 (ix2 u k) (ix3 (0 : Fin 1) u k) ?_
          rw [Shape.rowMajor_val_three, Shape.rowMajor_val_two]
          show (0 * 64 + u.val) * 256 + k.val = u.val * 256 + k.val
          rw [Nat.zero_mul, Nat.zero_add]

/-! ## The bias along the rows -/

/-- The bias given a unit row axis and repeated along the 2048 rows, at (r, v), is bb(v). -/
theorem bias_at (bb : Vec Ideal S1024 .f32) (h1 : S1024.ShapeCasts S1x1024) (h2 : S1x1024.Broadcasts S2048x1024)
    (r : Fin 2048) (v : Fin 1024) :
    broadcastTo S2048x1024 (shapeCast S1x1024 bb h1) h2 (ix2 r v) = bb (ix1 v) := by
  refine (broadcastTo_apply _ h2 (ix2 r v) (ix2 (0 : Fin 1) v) ?_).trans ?_
  · intro ax
    match ax with
    | ⟨0, _⟩ => show 0 = if (1 : Nat) = 1 then 0 else r.val; rw [if_pos rfl]
    | ⟨1, _⟩ => show v.val = if (1024 : Nat) = 1 then 0 else v.val; rw [if_neg (by decide)]
  · refine shapeCast_apply bb h1 (ix2 (0 : Fin 1) v) (ix1 v) ?_
    rw [Shape.rowMajor_val_two, Shape.rowMajor_val_one]
    show v.val = 0 * 1024 + v.val
    rw [Nat.zero_mul, Nat.zero_add]

/-! ## The stored value -/

/-- What the body stores at (0, p, u, v): the contraction over k of the outer product with row v of the weights,
    plus the bias at v. -/
theorem pay_apply (xb : Vec Ideal S1x32x256 .f32) (yb : Vec Ideal S1x64x256 .f32) (w : Vec Ideal S1024x256 .f32)
    (bb : Vec Ideal S1024 .f32) (p : Fin 32) (u : Fin 64) (v : Fin 1024) :
    k0_pay1 (F := Ideal) xb yb w bb (ix4 (0 : Fin 1) p u v)
      = (∑ k : Fin 256, (xb (ix3 (0 : Fin 1) p k) * yb (ix3 (0 : Fin 1) u k)) * w (ix2 v k)) + bb (ix1 v) := by
  have hr : (⟨p.val * 64 + u.val, by have := p.isLt; have := u.isLt; omega⟩ : Fin 2048).val = p.val * 64 + u.val := rfl
  unfold k0_pay1
  refine (shapeCast_apply _ _ (ix4 (0 : Fin 1) p u v) (ix3 p u v) ?_).trans ?_
  · rw [Shape.rowMajor_val_four, Shape.rowMajor_val_three]
    show (p.val * 64 + u.val) * 1024 + v.val = ((0 * 32 + p.val) * 64 + u.val) * 1024 + v.val
    rw [Nat.zero_mul, Nat.zero_add]
  refine (shapeCast_apply _ _ (ix3 p u v) (ix2 (⟨p.val * 64 + u.val, by have := p.isLt; have := u.isLt; omega⟩ : Fin 2048) v) ?_).trans ?_
  · rw [Shape.rowMajor_val_three, Shape.rowMajor_val_two]
    rfl
  rw [addf_apply, matmul_at, bias_at]
  congr 1
  refine Finset.sum_congr rfl fun k _ => ?_
  rw [truncf_apply, truncf_apply, outer_at xb yb _ _ _ _ _ _ _ p u k _ hr]

end Cert.KernelIdeal.Joint

end
-- ==== Proof.JointSpec.lean ====
/-
  The joint network as one function of its four arrays, index by index, on the extended reals:

      out(b, t, u, v) = Σ_{k < 256} (x(b, t, k) · y(b, u, k)) · w(v, k)  +  bias(v)

  for x of shape [4, 256, 256] (encoder states), y of shape [4, 64, 256] (predictor states), w of shape [1024, 256]
  (the projection to the vocabulary) and bias of shape [1024]. Both programs compute exactly this sum, factor by factor
  and in this order of the products, so no law of the extended reals beyond reading each operation at an index is used.
-/
import Idealize.ShloMosaic.Lib.ValueIdx
import Idealize.ShloMosaic.PureOps.Ideal

noncomputable section

open scoped BigOperators

namespace Cert.JointSpec

open Idealize.ShloMosaic Idealize.ShloMosaic.ValueIdx

/-- The joint network's output at (b, t, u, v). -/
def joint (x : (⟨3, ![4, 256, 256]⟩ : Shape).Idx → EReal) (y : (⟨3, ![4, 64, 256]⟩ : Shape).Idx → EReal)
    (w : (⟨2, ![1024, 256]⟩ : Shape).Idx → EReal) (bias : (⟨1, ![1024]⟩ : Shape).Idx → EReal) :
    (⟨4, ![4, 256, 64, 1024]⟩ : Shape).Idx → EReal :=
  fun i => (∑ k : Fin 256, (x (ix3 (i 0) (i 1) k) * y (ix3 (i 0) (i 2) k)) * w (ix2 (i 3) k)) + bias (ix1 (i 3))

theorem joint_apply (x : (⟨3, ![4, 256, 256]⟩ : Shape).Idx → EReal) (y : (⟨3, ![4, 64, 256]⟩ : Shape).Idx → EReal)
    (w : (⟨2, ![1024, 256]⟩ : Shape).Idx → EReal) (bias : (⟨1, ![1024]⟩ : Shape).Idx → EReal)
    (b : Fin 4) (t : Fin 256) (u : Fin 64) (v : Fin 1024) :
    joint x y w bias (ix4 b t u v)
      = (∑ k : Fin 256, (x (ix3 b t k) * y (ix3 b u k)) * w (ix2 v k)) + bias (ix1 v) := rfl

end Cert.JointSpec

end
-- ==== Proof.JointArray.lean ====
/-
  From the blocks to the whole array.

  The grid has 4 × 8 points; at the point whose output block index is (b, s, 0, 0) the kernel stages rows 32·s … 32·s + 31 of
  batch entry b of x, all of batch entry b of y, all of the weights and the bias, and writes back block (b, s, 0, 0), of
  shape [1, 32, 64, 1024], of the output. Entry (0, p, u, v) of that block is the joint network's value at
  (b, 32·s + p, u, v); the 32 blocks tile the output, so the output array ends as the joint network's function of the
  four arguments.
-/
import proofs.«128729_j24618752541227_1_alg».proof.Proof.Gen.KernelIdeal.Value
import proofs.«128729_j24618752541227_1_alg».proof.Proof.JointBody
import proofs.«128729_j24618752541227_1_alg».proof.Proof.JointSpec
import Idealize.ShloMosaic.Lib.Pipeline.Value

noncomputable section

open scoped BigOperators

namespace Cert.KernelIdeal.Joint

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The joint network's function of the four argument arrays as launched. -/
abbrev result (c : Dev nD) : Buf (Elt Ideal) ((c : Thread nD τ).loc main_v0) :=
  Cert.JointSpec.joint (m ((c : Thread nD τ).loc main_arg0)) (m ((c : Thread nD τ).loc main_arg1))
    (m ((c : Thread nD τ).loc main_arg2)) (m ((c : Thread nD τ).loc main_arg3))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The index maps over the grid: x moves with the output on the batch and time axes, y on the batch axis only, the
    weights and the bias stay; the output's block index is (b, s, 0, 0) with b < 4 and s < 8. -/
theorem idx_facts : ∀ t : Fin cfg0.N,
    win0_0.index t (0 : Fin 3) = win0_4.index t (0 : Fin 4)
    ∧ win0_0.index t (1 : Fin 3) = win0_4.index t (1 : Fin 4)
    ∧ win0_0.index t (2 : Fin 3) = 0
    ∧ win0_1.index t (0 : Fin 3) = win0_4.index t (0 : Fin 4)
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 1) = 0
    ∧ win0_4.index t (2 : Fin 4) = 0
    ∧ win0_4.index t (3 : Fin 4) = 0
    ∧ win0_4.index t (0 : Fin 4) ≤ 3
    ∧ win0_4.index t (1 : Fin 4) ≤ 7 :=
  (by decide +kernel : ∀ t : Fin grid0.N, _)

/-- Every output block index (b, s, 0, 0) is some grid point's. -/
theorem idx_onto : ∀ (q0 : Fin 4) (q1 : Fin 8), ∃ t : Fin cfg0.N, win0_4.index t = ![q0.val, q1.val, 0, 0] :=
  (by decide +kernel : ∀ (q0 : Fin 4) (q1 : Fin 8), ∃ t : Fin grid0.N, win0_4.index t = ![q0.val, q1.val, 0, 0])

/-! ## The staged blocks as entries of the arguments -/

/-- The block of x at a point: entry (0, p, k) is x(b, 32·s + p, k). -/
theorem xblk_apply (c : Dev nD) (t : Fin cfg0.N) (p : Fin 32) (k : Fin 256) (b : Fin 4) (r : Fin 256)
    (hb : b.val = win0_4.index t (0 : Fin 4)) (hr : r.val = win0_4.index t (1 : Fin 4) * 32 + p.val) :
    (iblk m c 0 t : Vec Ideal S1x32x256 .f32) (ix3 (0 : Fin 1) p k)
      = (m ((c : Thread nD τ).loc main_arg0) : S4x256x256.Idx → Elt Ideal .f32) (ix3 b r k) := by
  obtain ⟨e0, e1, e2, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * 0 = b.val; omega
  | ⟨1, _⟩ => show win0_0.index t (1 : Fin 3) * 32 + 1 * p.val = r.val; omega
  | ⟨2, _⟩ => show win0_0.index t (2 : Fin 3) * 256 + 1 * k.val = k.val; omega

/-- The block of y at a point: entry (0, u, k) is y(b, u, k). -/
theorem yblk_apply (c : Dev nD) (t : Fin cfg0.N) (u : Fin 64) (k : Fin 256) (b : Fin 4)
    (hb : b.val = win0_4.index t (0 : Fin 4)) :
    (iblk m c 1 t : Vec Ideal S1x64x256 .f32) (ix3 (0 : Fin 1) u k)
      = (m ((c : Thread nD τ).loc main_arg1) : S4x64x256.Idx → Elt Ideal .f32) (ix3 b u k) := by
  obtain ⟨-, -, -, e3, e4, e5, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * 0 = b.val; omega
  | ⟨1, _⟩ => show win0_1.index t (1 : Fin 3) * 64 + 1 * u.val = u.val; omega
  | ⟨2, _⟩ => show win0_1.index t (2 : Fin 3) * 256 + 1 * k.val = k.val; omega

/-- The block of the weights at a point is the whole matrix. -/
theorem wblk_apply (c : Dev nD) (t : Fin cfg0.N) (v : Fin 1024) (k : Fin 256) :
    (iblk m c 2 t : Vec Ideal S1024x256 .f32) (ix2 v k)
      = (m ((c : Thread nD τ).loc main_arg2) : S1024x256.Idx → Elt Ideal .f32) (ix2 v k) := by
  obtain ⟨-, -, -, -, -, -, e6, e7, -⟩ := idx_facts t
  unfold iblk
  rw [View.read_apply]
  show V m c main_arg2 _ = m (c.tc.loc main_arg2) _
  unfold V
  congr 1
  funext a
  apply Fin.ext
  match a with
  | ⟨0, _⟩ => show win0_2.index t (0 : Fin 2) * 1024 + 1 * v.val = v.val; omega
  | ⟨1, _⟩ => show win0_2.index t (1 : Fin 2) * 256 + 1 * k.val = k.val; omega

/-- The block of the bias at a point is the whole vector. -/
theorem bblk_apply (c : Dev nD) (t : Fin cfg0.N) (v : Fin 1024) :
    (iblk m c 3 t : Vec Ideal S1024 .f32) (ix1 v)
      = (m ((c : Thread nD τ).loc main_arg3) : S1024.Idx → Elt Ideal .f32) (ix1 v) := by
  obtain ⟨-, -, -, -, -, -, -, -, e8, -⟩ := idx_facts t
  unfold iblk
  rw [View.read_apply]
  show V m c main_arg3 _ = m (c.tc.loc main_arg3) _
  unfold V
  congr 1
  funext a
  apply Fin.ext
  match a with
  | ⟨0, _⟩ => show win0_3.index t (0 : Fin 1) * 1024 + 1 * v.val = v.val; omega

/-! ## What a point writes back -/

/-- What a grid point writes back is its block of the joint network's function of the arguments. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz4]
  simp only [View.ld_unit_zero (S := S1x32x256) hz3, View.ld_unit_zero (S := S1x64x256) hz3,
    View.ld_unit_zero (S := S1024x256) hz2, View.ld_unit_zero (S := S1024) hz1]
  obtain ⟨-, -, -, -, -, -, -, -, -, e9, e10, e11, e12⟩ := idx_facts t
  funext j
  obtain ⟨a, p, u, v, rfl⟩ : ∃ (a : Fin 1) (p : Fin 32) (u : Fin 64) (v : Fin 1024), j = ix4 a p u v :=
    ⟨j 0, j 1, j 2, j 3, eq_ix4 j⟩
  obtain rfl : a = 0 := Fin.ext (by have := a.isLt; omega)
  have hemb : ((cfg0.win 4).blk t).view.emb (ix4 (0 : Fin 1) p u v)
      = ix4 (⟨win0_4.index t (0 : Fin 4), by omega⟩ : Fin 4)
          (⟨win0_4.index t (1 : Fin 4) * 32 + p.val, by have := p.isLt; omega⟩ : Fin 256) u v := by
    funext ax
    apply Fin.ext
    match ax with
    | ⟨0, _⟩ => show win0_4.index t (0 : Fin 4) * 1 + 1 * 0 = win0_4.index t (0 : Fin 4); omega
    | ⟨1, _⟩ => show win0_4.index t (1 : Fin 4) * 32 + 1 * p.val = win0_4.index t (1 : Fin 4) * 32 + p.val; omega
    | ⟨2, _⟩ => show win0_4.index t (2 : Fin 4) * 64 + 1 * u.val = u.val; omega
    | ⟨3, _⟩ => show win0_4.index t (3 : Fin 4) * 1024 + 1 * v.val = v.val; omega
  show k0_pay1 (F := Ideal) (iblk m c 0 t) (iblk m c 1 t) (iblk m c 2 t) (iblk m c 3 t) (ix4 (0 : Fin 1) p u v)
    = result m c (((cfg0.win 4).blk t).view.emb (ix4 (0 : Fin 1) p u v))
  refine (pay_apply (iblk m c 0 t) (iblk m c 1 t) (iblk m c 2 t) (iblk m c 3 t) p u v).trans ?_
  refine Eq.trans ?_ (congrArg (result m c) hemb.symm)
  refine Eq.trans ?_ (Cert.JointSpec.joint_apply _ _ _ _ _ _ u v).symm
  congr 1
  · refine Finset.sum_congr rfl fun k _ => ?_
    exact congrArg₂ (· * ·) (congrArg₂ (· * ·) (xblk_apply m c t p k _ _ rfl rfl) (yblk_apply m c t u k _ rfl))
      (wblk_apply m c t v k)
  · exact bblk_apply m c t v

/-! ## The blocks tile the output -/

/-- An index of the output is in a point's block iff each coordinate is in the block's range on its axis. -/
theorem mem_blk (t : Fin cfg0.N) (i : S4x256x64x1024.Idx) :
    i ∈ ((cfg0.win 4).blk t).view.set ↔ ∀ a : Fin 4, win0_4.index t a * S1x32x64x1024.size a ≤ (i a).val
      ∧ (i a).val < win0_4.index t a * S1x32x64x1024.size a + S1x32x64x1024.size a := by
  show i ∈ ((View.whole main_v0).slice (win0_4.rect t)).set ↔ _
  rw [View.set_slice_whole, Rect.mem_set_unit]
  exact Iff.rfl

/-- Every index (b, r, u, v) of the output lies in the block of the point with block index (b, r / 32, 0, 0). -/
theorem cover (i : S4x256x64x1024.Idx) :
    ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 64 := (i 2).isLt
  have hi3 : (i 3).val < 1024 := (i 3).isLt
  obtain ⟨t, ht⟩ := idx_onto ⟨(i 0).val, hi0⟩ ⟨(i 1).val / 32, by omega⟩
  have q0 : win0_4.index t (0 : Fin 4) = (i 0).val := congrFun ht 0
  have q1 : win0_4.index t (1 : Fin 4) = (i 1).val / 32 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 32 ≤ (i 1).val ∧ (i 1).val < win0_4.index t (1 : Fin 4) * 32 + 32; omega
  | ⟨2, _⟩ => show win0_4.index t (2 : Fin 4) * 64 ≤ (i 2).val ∧ (i 2).val < win0_4.index t (2 : Fin 4) * 64 + 64; omega
  | ⟨3, _⟩ => show win0_4.index t (3 : Fin 4) * 1024 ≤ (i 3).val ∧ (i 3).val < win0_4.index t (3 : Fin 4) * 1024 + 1024; omega

/-- The output array after the run is the joint network's function of the arguments. -/
theorem final (c : Dev nD) : (dats m 0 c).arrAt 4 cfg0.N = result m c :=
  (dats m 0 c).arrAt_eq_of_cover 4 (result m c) (fun t _ => flushed_eq m c t) cover

/-- The run, read: the result array at the joint network's function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Joint

end
-- ==== Proof.JointRef.lean ====
/-
  The reference at the ideal values is the joint network's function: its broadcasts read x at (b, t, k) and y at
  (b, u, k), its dot_general contracts the last axis of their product with the last axis of the weights, and the bias
  is broadcast along the vocabulary axis.
-/
import proofs.«128729_j24618752541227_1_alg».proof.Proof.Gen.ReferenceIdeal.Read
import proofs.«128729_j24618752541227_1_alg».proof.Proof.JointSpec

noncomputable section

open scoped BigOperators

namespace Cert.ReferenceIdeal.Joint

open Cert.ReferenceIdeal Cert.ReferenceIdeal.Read Idealize.ShloMosaic Idealize.ShloMosaic.ValueIdx

/-- The reference's result, stage by stage, is the joint network's function of the four arguments. -/
theorem ref_eq (x0 : (⟨S4x256x256, .f32⟩ : BufTy).Contents (Elt Ideal)) (x1 : (⟨S4x64x256, .f32⟩ : BufTy).Contents (Elt Ideal))
    (x2 : (⟨S1024x256, .f32⟩ : BufTy).Contents (Elt Ideal)) (x3 : (⟨S1024, .f32⟩ : BufTy).Contents (Elt Ideal)) :
    val_main_v8 (F := Ideal) x0 x1 x2 x3 = Cert.JointSpec.joint x0 x1 x2 x3 := by
  funext i
  rw [val_main_v8_apply, val_main_v5_apply, val_main_v7_apply, val_main_v6_apply]
  unfold Cert.JointSpec.joint
  show (∑ k : Fin 256, _) + _ = (∑ k : Fin 256, _) + _
  congr 1
  · refine Finset.sum_congr rfl fun k _ => ?_
    rw [val_main_v4_apply, val_main_v2_apply, val_main_v0_apply, val_main_v3_apply, val_main_v1_apply]
    have e0 : idx_main_v0 (idx_main_v2 (lidx_main_v5 i k)) = ix3 (i 0) (i 1) k := funext fun a => Fin.ext (by
      match a with
      | ⟨0, _⟩ => rfl
      | ⟨1, _⟩ => rfl
      | ⟨2, _⟩ => rfl)
    have e1 : idx_main_v1 (idx_main_v3 (lidx_main_v5 i k)) = ix3 (i 0) (i 2) k := funext fun a => Fin.ext (by
      match a with
      | ⟨0, _⟩ => rfl
      | ⟨1, _⟩ => rfl
      | ⟨2, _⟩ => rfl)
    have e2 : ridx_main_v5 i k = ix2 (i 3) k := funext fun a => Fin.ext (by
      match a with
      | ⟨0, _⟩ => rfl
      | ⟨1, _⟩ => rfl)
    rw [e0, e1, e2]
    rfl
  · have e3 : idx_main_v6 (idx_main_v7 i) = ix1 (i 3) := funext fun a => Fin.ext (by
      match a with
      | ⟨0, _⟩ => rfl)
    exact congrArg x3 e3

end Cert.ReferenceIdeal.Joint

end
-- ==== Proof.lean ====
/-
  The joint network of a transducer: out(b, t, u, v) = Σ_k (x(b, t, k) · y(b, u, k)) · w(v, k) + bias(v).

  The kernel walks a 4 × 8 grid; at each point it forms the outer product of 32 rows of x with the 64 rows of y of one
  batch entry, contracts it with the weights as one [2048, 256] × [1024, 256]ᵀ matrix product (the operands cut to
  bfloat16 first, which is the identity on extended reals) and adds the bias. The reference broadcasts x and y to
  [4, 256, 64, 256], multiplies, contracts the last axis with the weights' last axis and adds the broadcast bias. At the
  ideal values both are the same sum of the same products in the same order, so the two results agree entry by entry with
  no appeal to finiteness: the kernel's body read at an index (Proof/JointBody.lean), its blocks assembled into the
  whole array (Proof/JointArray.lean), and the reference read stage by stage (Proof/JointRef.lean) all meet at the one
  function of Proof/JointSpec.lean. The ideal pass rewrote nothing, so the idealization claim is trivial.
-/
import proofs.«128729_j24618752541227_1_alg».proof.Defs
import proofs.«128729_j24618752541227_1_alg».proof.Proof.Gen.Kernel
import proofs.«128729_j24618752541227_1_alg».proof.Proof.Gen.Kernel.Skeleton
import proofs.«128729_j24618752541227_1_alg».proof.Proof.Gen.Kernel.Launch
import proofs.«128729_j24618752541227_1_alg».proof.Proof.Gen.Kernel.Points
import proofs.«128729_j24618752541227_1_alg».proof.Proof.Gen.Kernel.Frame
import proofs.«128729_j24618752541227_1_alg».proof.Proof.Gen.KernelIdeal
import proofs.«128729_j24618752541227_1_alg».proof.Proof.Gen.KernelIdeal.Skeleton
import proofs.«128729_j24618752541227_1_alg».proof.Proof.Gen.KernelIdeal.Launch
import proofs.«128729_j24618752541227_1_alg».proof.Proof.Gen.KernelIdeal.Points
import proofs.«128729_j24618752541227_1_alg».proof.Proof.Gen.KernelIdeal.Frame
import proofs.«128729_j24618752541227_1_alg».proof.Proof.Gen.ReferenceIdeal
import proofs.«128729_j24618752541227_1_alg».proof.Proof.Gen.Pre_finite_inputs
import proofs.«128729_j24618752541227_1_alg».proof.Proof.Gen.KernelIdeal.Value
import proofs.«128729_j24618752541227_1_alg».proof.Proof.Gen.ReferenceIdeal.Run
import proofs.«128729_j24618752541227_1_alg».proof.Proof.Gen.ReferenceIdeal.Read
import proofs.«128729_j24618752541227_1_alg».proof.Proof.JointArray
import proofs.«128729_j24618752541227_1_alg».proof.Proof.JointRef
import Idealize.ShloMosaic.Adequacy
import Idealize.ShloMosaic.Init

noncomputable section

namespace Cert.Proof

open Idealize.ShloMosaic Idealize.SL.Sem

/-- The kernel at the word level runs and leaves its arguments as they were. -/
theorem frame_k : Cert.frame_Kernel := fun m ρ _ => Cert.Kernel.Gen.frame m ρ

/-- So does the kernel at the ideal values. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the joint network's function of them. -/
theorem algebraic : Cert.algebraic_KernelIdeal_ReferenceIdeal := by
  intro m ρ m' ρ' _ hagree
  refine ⟨fun c => Cert.KernelIdeal.Joint.result m c, Cert.KernelIdeal.Joint.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Joint.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
